-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S512x256 : Shape := ⟨2, ![512, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S10000x256 .f32) (main_arg1 : FVec F S10000x10000 .f32) (main_arg2 : FVec F S512x256 .f32) (main_arg3 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S512x256 : Shape := ⟨2, ![512, 256]⟩
abbrev S256 : Shape := ⟨1, ![256]⟩
abbrev S256x256 : Shape := ⟨2, ![256, 256]⟩
abbrev S1x256 : Shape := ⟨2, ![1, 256]⟩
abbrev S_ : Shape := ⟨0, ![]⟩
abbrev S10000x1 : Shape := ⟨2, ![10000, 1]⟩
abbrev S10000x257 : Shape := ⟨2, ![10000, 257]⟩
abbrev S200x10000 : Shape := ⟨2, ![200, 10000]⟩
abbrev S200x256 : Shape := ⟨2, ![200, 256]⟩
abbrev S200x257 : Shape := ⟨2, ![200, 257]⟩
abbrev S200x1 : Shape := ⟨2, ![200, 1]⟩

abbrev nBuf : Space → Nat
  | .hbm => 12
  | .vmem => 9
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S1x256, .f32⟩
  | .hbm, ⟨7, _⟩ => ⟨S_, .f32⟩
  | .hbm, ⟨8, _⟩ => ⟨S10000x1, .f32⟩
  | .hbm, ⟨9, _⟩ => ⟨S10000x257, .f32⟩
  | .hbm, ⟨10, _⟩ => ⟨S10000x257, .bf16⟩
  | .hbm, ⟨11, _⟩ => ⟨S10000x256, .f32⟩
  | .local _ .vmem, ⟨0, _⟩ => ⟨S200x10000, .f32⟩
  | .local _ .vmem, ⟨1, _⟩ => ⟨S200x10000, .f32⟩
  | .local _ .vmem, ⟨2, _⟩ => ⟨S10000x257, .bf16⟩
  | .local _ .vmem, ⟨3, _⟩ => ⟨S10000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S200x256, .f32⟩
  | .local _ .vmem, ⟨8, _⟩ => ⟨S200x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![50], ![false]⟩

def k0_off1 (i : grid0.Coords) : Fin 2 → Nat :=
  let arg0 : BitVec 32 := BitVec.ofNat 32 (i 0).val
  let c200_i32 : BitVec 32 := 200#32
  let v13 : BitVec 32 := Scalar.muli arg0 c200_i32
  let v14 : Index := Scalar.indexCast v13
  let c0_5 : Index := 0#32
  ![v14.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x257 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S200x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S512x256_S256x256_0_0 : S512x256.Slices ![0, 0] S256x256
  slices_S512x256_S256x256_256_0 : S512x256.Slices ![256, 0] S256x256
  shapeCasts_S256_S1x256 : S256.ShapeCasts S1x256
  bcast_S_S10000x1 : S_.BroadcastsInDim S10000x1 (![] : Fin 0 → Fin S10000x1.rank)
  concatenates_S10000x256_S10000x1_S10000x257_d1 : Shape.Concatenates [S10000x256, S10000x1] S10000x257 1
  bitsLt_bf16_f32 : FTy.bits .bf16 < FTy.bits .f32
  inb_S200x10000_S200x10000_0_0 : ∀ a, (![0, 0] : Fin 2 → Nat) a + S200x10000.size a ≤ S200x10000.size a
  h_S200x10000 : 0 < S200x10000.numel
  inb_S10000x257_S10000x257_0_0 : ∀ a, (![0, 0] : Fin 2 → Nat) a + S10000x257.size a ≤ S10000x257.size a
  h_S10000x257 : 0 < S10000x257.numel
  shapeCasts_S10000x257_S10000x257 : S10000x257.ShapeCasts S10000x257
  slices_S200x257_o0_256_S200x1 : S200x257.Slices ![0, 256] S200x1
  slices_S200x257_o0_0_S200x256 : S200x257.Slices ![0, 0] S200x256
  broadcasts_S200x1_S200x256 : S200x1.Broadcasts S200x256
  h_S200x256 : 0 < S200x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  inb_S200x256_S200x256_0_0 : ∀ a, (![0, 0] : Fin 2 → Nat) a + S200x256.size a ≤ S200x256.size a
  dot_S200x10000_S10000x257_S200x257_1_0_0_1_n_n_wf : DotDims.WF S200x10000 S10000x257 S200x257 [1] [0] [0] [1] [] []
  dot_S200x256_S256x256_S200x256_1_0_0_1_n_n_wf : DotDims.WF S200x256 S256x256 S200x256 [1] [0] [0] [1] [] []
  hrank0 : 0 < grid0.rank
  k0_off1_inb : ∀ i : grid0.Coords, ∀ a, (k0_off1 i) a + S200x256.size a ≤ S10000x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x257.size a ≤ S10000x257.size a
  hwx0_1 : ∀ i : grid0.Coords, EltTy.bits .bf16 = 32 ∨ (Rect.block (s := S10000x257) S10000x257.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x256.size a ≤ S10000x256.size a
  hwx0_2 : ∀ i : grid0.Coords, EltTy.bits .f32 = 32 ∨ (Rect.block (s := S10000x256) S10000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x256.size a ≤ S10000x256.size a
  hwx0_6 : ∀ i : grid0.Coords, EltTy.bits .f32 = 32 ∨ (Rect.block (s := S10000x256) S200x256.size (cc0_transform_6 i) (hinb0_6 i)).WholeWords (EltTy.packing .f32)

variable [Facts₀]

def dot_S200x10000_S10000x257_S200x257_1_0_0_1_n_n : DotDims S200x10000 S10000x257 S200x257 where
  lhsContracting := [1]
  rhsContracting := [0]
  lhsNonContracting := [0]
  rhsNonContracting := [1]
  lhsBatch := []
  rhsBatch := []
  wf := dot_S200x10000_S10000x257_S200x257_1_0_0_1_n_n_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S10000x257.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S200x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S512x256 : Shape := ⟨2, ![512, 256]⟩
abbrev S256 : Shape := ⟨1, ![256]⟩
abbrev S_ : Shape := ⟨0, ![]⟩
abbrev S10000 : Shape := ⟨1, ![10000]⟩
abbrev S10000x1 : Shape := ⟨2, ![10000, 1]⟩
abbrev S10000x512 : Shape := ⟨2, ![10000, 512]⟩
abbrev S1x256 : Shape := ⟨2, ![1, 256]⟩

abbrev nBuf : Space → Nat
  | .hbm => 21
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S512x256, .f32⟩
  | .hbm, ⟨3, _⟩ => ⟨S256, .f32⟩
  | .hbm, ⟨4, _⟩ => ⟨S10000x256, .f32⟩
  | .hbm, ⟨5, _⟩ => ⟨S_, .f32⟩
  | .hbm, ⟨6, _⟩ => ⟨S10000, .f32⟩
  | .hbm, ⟨7, _⟩ => ⟨S_, .f32⟩
  | .hbm, ⟨8, _⟩ => ⟨S10000, .f32⟩
  | .hbm, ⟨9, _⟩ => ⟨S10000, .i1⟩
  | .hbm, ⟨10, _⟩ => ⟨S_, .f32⟩
  | .hbm, ⟨11, _⟩ => ⟨S10000, .f32⟩
  | .hbm, ⟨12, _⟩ => ⟨S10000, .f32⟩
  | .hbm, ⟨13, _⟩ => ⟨S10000x1, .f32⟩
  | .hbm, ⟨14, _⟩ => ⟨S10000x256, .f32⟩
  | .hbm, ⟨15, _⟩ => ⟨S10000x256, .f32⟩
  | .hbm, ⟨16, _⟩ => ⟨S10000x512, .f32⟩
  | .hbm, ⟨17, _⟩ => ⟨S10000x256, .f32⟩
  | .hbm, ⟨18, _⟩ => ⟨S1x256, .f32⟩
  | .hbm, ⟨19, _⟩ => ⟨S10000x256, .f32⟩
  | .hbm, ⟨20, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  concatenates_S10000x256_S10000x256_S10000x512_d1 : Shape.Concatenates [S10000x256, S10000x256] S10000x512 1
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  dot_S10000x10000_S10000x256_S10000x256_1_0_0_1_n_n_wf : DotDims.WF S10000x10000 S10000x256 S10000x256 [1] [0] [0] [1] [] []
  dot_S10000x512_S512x256_S10000x256_1_0_0_1_n_n_wf : DotDims.WF S10000x512 S512x256 S10000x256 [1] [0] [0] [1] [] []

variable [Facts₀]

def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.Body.lean ====
/-
  What one run of the kernel body leaves in the output's staging buffer: its one store covers the block, so the
  buffer holds the store's payload — the body's arithmetic of the blocks it loads. Five of the six loads read a
  whole staging buffer; the sixth reads 200 rows of the resident features, starting at a row the grid coordinate
  picks.
-/
import proofs.«137840_g30640296690057_cont_9to1_302_4_alg».proof.Proof.Gen.KernelIdeal.Frame
import Idealize.ShloMosaic.Lib.Pipeline.Value

noncomputable section

namespace Cert.KernelIdeal.Sage

open Cert.KernelIdeal Cert.KernelIdeal.Gen Idealize.ShloMosaic Idealize.ShloMosaic.TcCoe Idealize.ShloMosaic.Tactic Idealize.SL.Sem

variable {F : FTy → Type} [FloatOps F]

theorem zero_offsets : (![0, 0] : Fin 2 → Nat) = fun _ => 0 := funext fun a => by fin_cases a <;> rfl

/-- The 200 rows of the resident features the body loads at grid point `i`. -/
abbrev ownRows (i : grid0.Coords) (x2 : Vec F S10000x256 .f32) : Vec F S200x256 .f32 :=
  View.ld x2 (Rect.unit (s := S10000x256) (k0_off1 i) S200x256.size (k0_off1_inb i))

theorem out_eq (c : Dev nD) (i : grid0.Coords) (arg1 : Memref sig .tc .vmem S200x10000 .f32) (harg1 : arg1.IsWhole) (arg2 : Memref sig .tc .vmem S10000x257 .bf16) (harg2 : arg2.IsWhole) (arg3 : Memref sig .tc .vmem S10000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S200x256 .f32) (harg7 : arg7.IsWhole)
    (x0 : Vec F S200x10000 .f32) (x1 : Vec F S10000x257 .bf16) (x2 : Vec F S10000x256 .f32) (x3 : Vec F S256x256 .f32) (x4 : Vec F S256x256 .f32) (x5 : Vec F S1x256 .f32) :
    out0_A_6 c i arg1 harg1 arg2 harg2 arg3 harg3 arg4 harg4 arg5 harg5 arg6 harg6 arg7 harg7 x0 x1 x2 x3 x4 x5
      = k0_pay1 x0 x1 (ownRows i x2) x3 x4 x5 := by
  unfold out0_A_6
  rw [View.read_writes_eq_canon _ _ _ (cover0_A_6 c i arg1 harg1 arg2 harg2 arg3 harg3 arg4 harg4 arg5 harg5 arg6 harg6 arg7 harg7 x0 x1 x2 x3 x4 x5)]
  unfold kernelRun0_A
  dsimp only
  sl_unfold_words
  rw [View.canon_unit_zero zero_offsets]
  simp only [View.readAt_eq_ld, harg1.read_unread, harg2.read_unread, harg3.read_unread, harg4.read_unread, harg5.read_unread, harg6.read_unread,
    View.ld_unit_zero (S := S200x10000) zero_offsets, View.ld_unit_zero (S := S10000x257) zero_offsets, View.ld_unit_zero (S := S256x256) zero_offsets, View.ld_unit_zero (S := S1x256) zero_offsets]
  rfl

end Cert.KernelIdeal.Sage

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.Payload.lean ====
/-
  The kernel body's arithmetic, read at one entry of its output block.

  The body multiplies its 200-row strip of the adjacency by the node features extended with one extra column, so
  that column 256 of the product holds the strip's row sums against that column; it replaces a zero row sum by one,
  divides the first 256 columns by it, multiplies the node's own features and that quotient by the two halves of the
  weight, adds the two products and adds the bias row. Read at entry `(p, q)` of the block, each product is a sum
  over its contracted axis.
-/
import proofs.«137840_g30640296690057_cont_9to1_302_4_alg».proof.Proof.Gen.KernelIdeal.Skeleton
import proofs.«137840_g30640296690057_cont_9to1_302_4_alg».proof.Proof.LibPlainDot
import Idealize.ShloMosaic.Lib.Pipeline.Value
import Idealize.ShloMosaic.Lib.ValueLayout
import Idealize.ShloMosaic.Lib.IdealHost

noncomputable section

namespace Cert.KernelIdeal.Sage

open Cert.KernelIdeal Cert.KernelIdeal.Gen Idealize.ShloMosaic Idealize.ShloMosaic.ValueIdx

/-- The strip-by-features product has the plain dimension numbers of a 200×10000 by 10000×257 product. -/
theorem dims_strip : dot_S200x10000_S10000x257_S200x257_1_0_0_1_n_n = DotDims.plain 200 10000 257 := rfl
/-- The two products with a half of the weight have those of a 200×256 by 256×256 product. -/
theorem dims_weight : dot_S200x256_S256x256_S200x256_1_0_0_1_n_n = DotDims.plain 200 256 256 := rfl

/-- Column `j` of the first 256 columns of the extended features. -/
abbrev col (j : Fin 256) : Fin 257 := ⟨j.val, by omega⟩
/-- The extra, last column of the extended features. -/
abbrev lastCol : Fin 257 := ⟨256, by omega⟩

/-- Row `p` of the strip against column `j` of the extended features. -/
def stripDot (a : FVec Ideal S200x10000 .f32) (xa : FVec Ideal S10000x257 .bf16) (p : Fin 200) (j : Fin 257) : EReal :=
  ∑ k : Fin 10000, a (ix2 p k) * xa (ix2 k j)

/-- The body's divisor in row `p`: the product's last column, or one where that compares equal to zero. -/
def stripDivisor (a : FVec Ideal S200x10000 .f32) (xa : FVec Ideal S10000x257 .bf16) (p : Fin 200) : EReal :=
  Scalar.select (FloatOps.cmpf (F := Ideal) (φ := .f32) .oeq (stripDot a xa p lastCol) 0) 1 (stripDot a xa p lastCol)

/-- The strip-by-features product, into the zero accumulator. -/
def stripProd (a : FVec Ideal S200x10000 .f32) (xa : FVec Ideal S10000x257 .bf16) : FVec Ideal S200x257 .f32 :=
  matmul dot_S200x10000_S10000x257_S200x257_1_0_0_1_n_n none (truncf FTy.bf16 a bitsLt_bf16_f32) xa (constant S200x257 FTy.f32 0#32)

/-- Its entry `(p, j)` is row `p` of the strip against column `j`: narrowing the strip changes no value. -/
theorem stripProd_apply (a : FVec Ideal S200x10000 .f32) (xa : FVec Ideal S10000x257 .bf16) (p : Fin 200) (j : Fin 257) :
    stripProd a xa (ix2 p j) = stripDot a xa p j :=
  Cert.Lib.PlainDot.matmul_zero_apply none (truncf FTy.bf16 a bitsLt_bf16_f32) xa p j

/-- The body's quotient: the product's first 256 columns over the divisor spread along each row. -/
def stripQuot (a : FVec Ideal S200x10000 .f32) (xa : FVec Ideal S10000x257 .bf16) : FVec Ideal S200x256 .f32 :=
  divf
    (extractStridedSlice S200x256 ![0, 0] (stripProd a xa) slices_S200x257_o0_0_S200x256)
    (broadcastTo S200x256
      (select
        (cmpf CmpFPredicate.oeq
          (extractStridedSlice S200x1 ![0, 256] (stripProd a xa) slices_S200x257_o0_256_S200x1)
          (broadcast S200x1 (FloatOps.ofBits FTy.f32 0#32)))
        (broadcast S200x1 (FloatOps.ofBits FTy.f32 1065353216#32))
        (extractStridedSlice S200x1 ![0, 256] (stripProd a xa) slices_S200x257_o0_256_S200x1))
      broadcasts_S200x1_S200x256)

/-- The divisor column spread along a row reads, at `(p, j)`, the column's entry `(p, 0)`. -/
theorem spread_apply (v : FVec Ideal S200x1 .f32) (p : Fin 200) (j : Fin 256) :
    broadcastTo S200x256 v broadcasts_S200x1_S200x256 (ix2 p j) = v (ix2 p (0 : Fin 1)) :=
  broadcastTo_apply v broadcasts_S200x1_S200x256 (ix2 p j) (ix2 p (0 : Fin 1)) fun ax => by
    match ax with
    | ⟨0, _⟩ => rfl
    | ⟨1, _⟩ => rfl

theorem stripQuot_apply (a : FVec Ideal S200x10000 .f32) (xa : FVec Ideal S10000x257 .bf16) (p : Fin 200) (j : Fin 256) :
    stripQuot a xa (ix2 p j) = Ideal.div (stripDot a xa p (col j)) (stripDivisor a xa p) := by
  unfold stripQuot
  rw [divf_apply, spread_apply, select_apply, cmpf_apply, broadcast_apply, broadcast_apply,
    slice2_axis1_apply 0 (stripProd a xa) slices_S200x257_o0_0_S200x256 p j (col j) (Nat.zero_add _).symm,
    slice2_axis1_apply 256 (stripProd a xa) slices_S200x257_o0_256_S200x1 p (0 : Fin 1) lastCol rfl,
    stripProd_apply, stripProd_apply]
  unfold stripDivisor
  rw [Ideal.ofBits_def, Ideal.ofBits_def, Ideal.ofBits_zero_f32]
  rw [show Ideal.ofBits FTy.f32 1065353216#32 = 1 from Ideal.ofBits_one_f32]

theorem pay_apply (a : FVec Ideal S200x10000 .f32) (xa : FVec Ideal S10000x257 .bf16) (xi : FVec Ideal S200x256 .f32)
    (ws wa : FVec Ideal S256x256 .f32) (b2 : FVec Ideal S1x256 .f32) (p : Fin 200) (q : Fin 256) :
    k0_pay1 (F := Ideal) a xa xi ws wa b2 (ix2 p q)
      = (∑ j : Fin 256, xi (ix2 p j) * ws (ix2 j q)
          + ∑ j : Fin 256, Ideal.div (stripDot a xa p (col j)) (stripDivisor a xa p) * wa (ix2 j q))
        + b2 (ix2 (0 : Fin 1) q) := by
  unfold k0_pay1
  simp only [shapeCast_self]
  rw [addf_apply, addf_apply, broadcastTo_1b_ab_apply]
  refine congrArg (· + b2 (ix2 (0 : Fin 1) q)) (congrArg₂ (· + ·) ?_ ?_)
  · exact Cert.Lib.PlainDot.matmul_zero_apply none xi ws p q
  · refine (Cert.Lib.PlainDot.matmul_zero_apply none (stripQuot a xa) wa p q).trans ?_
    exact Finset.sum_congr rfl fun j _ => by rw [stripQuot_apply]

end Cert.KernelIdeal.Sage

end
-- ==== Proof.Spec.lean ====
/-
  The graph-convolution layer as one function of its four arguments, over the extended reals.

  For node `r` and output feature `o`:
    out (r, o) = (∑ j, x (r, j) · w (j, o)  +  ∑ j, mean (r, j) · w (256 + j, o))  +  b o
  where `mean (r, j) = (∑ k, adj (r, k) · x (k, j)) / divisor r` is the neighbourhood mean, and the divisor is the
  row degree `∑ k, adj (r, k)`, replaced by one where that degree compares equal to zero. The first 256 rows of the
  weight act on the node's own features, the last 256 on the mean of its neighbours'.
-/
import Idealize.ShloMosaic.Lib.ValueIdx
import Idealize.ShloMosaic.PureOps.Ideal.Laws
import Idealize.ShloMosaic.Lib.IdealHost

noncomputable section

namespace Cert.Sage

open Idealize.ShloMosaic Idealize.ShloMosaic.ValueIdx

/-- Row `j` of the weight's upper half (the rows that multiply a node's own features). -/
abbrev lo (j : Fin 256) : Fin 512 := ⟨j.val, by omega⟩
/-- Row `256 + j` of the weight: its lower half (the rows that multiply the neighbourhood mean). -/
abbrev hi (j : Fin 256) : Fin 512 := ⟨256 + j.val, by omega⟩

/-- The degree of node `r`: the sum of row `r` of the adjacency. -/
def degree (adj : FVec Ideal ⟨2, ![10000, 10000]⟩ .f32) (r : Fin 10000) : EReal :=
  ∑ k : Fin 10000, adj (ix2 r k)

/-- What the mean divides by: the degree, or one where the degree compares equal to zero. -/
def divisor (adj : FVec Ideal ⟨2, ![10000, 10000]⟩ .f32) (r : Fin 10000) : EReal :=
  Scalar.select (FloatOps.cmpf (F := Ideal) (φ := .f32) .oeq (degree adj r) 0) 1 (degree adj r)

/-- The sum of the neighbours' feature `j`, weighted by row `r` of the adjacency. -/
def neighbours (x : FVec Ideal ⟨2, ![10000, 256]⟩ .f32) (adj : FVec Ideal ⟨2, ![10000, 10000]⟩ .f32)
    (r : Fin 10000) (j : Fin 256) : EReal :=
  ∑ k : Fin 10000, adj (ix2 r k) * x (ix2 k j)

/-- The neighbourhood mean of feature `j` at node `r`. -/
def mean (x : FVec Ideal ⟨2, ![10000, 256]⟩ .f32) (adj : FVec Ideal ⟨2, ![10000, 10000]⟩ .f32)
    (r : Fin 10000) (j : Fin 256) : EReal :=
  Ideal.div (neighbours x adj r j) (divisor adj r)

/-- The layer's output at node `r`, feature `o`. -/
def entry (x : FVec Ideal ⟨2, ![10000, 256]⟩ .f32) (adj : FVec Ideal ⟨2, ![10000, 10000]⟩ .f32)
    (w : FVec Ideal ⟨2, ![512, 256]⟩ .f32) (b : FVec Ideal ⟨1, ![256]⟩ .f32) (r : Fin 10000) (o : Fin 256) : EReal :=
  (∑ j : Fin 256, x (ix2 r j) * w (ix2 (lo j) o) + ∑ j : Fin 256, mean x adj r j * w (ix2 (hi j) o)) + b (ix1 o)

/-- The layer's whole output array. -/
def out (x : FVec Ideal ⟨2, ![10000, 256]⟩ .f32) (adj : FVec Ideal ⟨2, ![10000, 10000]⟩ .f32)
    (w : FVec Ideal ⟨2, ![512, 256]⟩ .f32) (b : FVec Ideal ⟨1, ![256]⟩ .f32) : FVec Ideal ⟨2, ![10000, 256]⟩ .f32 :=
  fun i => entry x adj w b (i 0) (i 1)

theorem out_apply (x : FVec Ideal ⟨2, ![10000, 256]⟩ .f32) (adj : FVec Ideal ⟨2, ![10000, 10000]⟩ .f32)
    (w : FVec Ideal ⟨2, ![512, 256]⟩ .f32) (b : FVec Ideal ⟨1, ![256]⟩ .f32) (r : Fin 10000) (o : Fin 256) :
    out x adj w b (ix2 r o) = entry x adj w b r o := rfl

/-- A sum over the 512 rows of the weight is the sum over its upper half plus the sum over its lower half. -/
theorem sum_halves (f : Fin 512 → EReal) : ∑ k : Fin 512, f k = ∑ j : Fin 256, f (lo j) + ∑ j : Fin 256, f (hi j) :=
  Fin.sum_univ_add (a := 256) (b := 256) f

end Cert.Sage

end
-- ==== Proof.Entry.lean ====
/-
  One entry of the kernel's output block is the layer's entry, given what the body's loaded blocks hold.

  At grid point `t` and block row `p` the node is `r = 200 t + p`. If the strip's row `p` is the adjacency's row
  `r`, the extended features are the features with a column of ones behind them, the loaded feature rows are the
  node's own, the two weight blocks are the weight's halves and the bias row is the bias, then: the product's last
  column is the degree (`a · 1 = a`), its other columns the neighbours' weighted sums, so the body's quotient is the
  neighbourhood mean and the body's entry `(p, q)` is the layer's entry `(r, q)`. No law beyond `a · 1 = a` is used.
-/
import proofs.«137840_g30640296690057_cont_9to1_302_4_alg».proof.Proof.Payload
import proofs.«137840_g30640296690057_cont_9to1_302_4_alg».proof.Proof.Spec

noncomputable section

namespace Cert.KernelIdeal.Sage

open Cert.KernelIdeal Cert.KernelIdeal.Gen Idealize.ShloMosaic Idealize.ShloMosaic.ValueIdx
open Cert.Sage

theorem block_entry (x : FVec Ideal S10000x256 .f32) (adj : FVec Ideal S10000x10000 .f32) (w : FVec Ideal S512x256 .f32)
    (b : FVec Ideal S256 .f32)
    (a : FVec Ideal S200x10000 .f32) (xa : FVec Ideal S10000x257 .bf16) (xi : FVec Ideal S200x256 .f32)
    (ws wa : FVec Ideal S256x256 .f32) (b2 : FVec Ideal S1x256 .f32) (r : Fin 10000) (p : Fin 200) (q : Fin 256)
    (ha : ∀ k : Fin 10000, a (ix2 p k) = adj (ix2 r k))
    (hxa : ∀ (k : Fin 10000) (j : Fin 256), xa (ix2 k (col j)) = x (ix2 k j))
    (hone : ∀ k : Fin 10000, xa (ix2 k lastCol) = 1)
    (hxi : ∀ j : Fin 256, xi (ix2 p j) = x (ix2 r j))
    (hws : ∀ j : Fin 256, ws (ix2 j q) = w (ix2 (lo j) q))
    (hwa : ∀ j : Fin 256, wa (ix2 j q) = w (ix2 (hi j) q))
    (hb : b2 (ix2 (0 : Fin 1) q) = b (ix1 q)) :
    k0_pay1 (F := Ideal) a xa xi ws wa b2 (ix2 p q) = entry x adj w b r q := by
  have hdeg : stripDot a xa p lastCol = degree adj r := by
    unfold stripDot degree
    exact Finset.sum_congr rfl fun k _ => by rw [ha, hone, mul_one]
  have hdiv : stripDivisor a xa p = divisor adj r := by
    unfold stripDivisor divisor
    rw [hdeg]
  have hnb : ∀ j : Fin 256, stripDot a xa p (col j) = neighbours x adj r j := fun j => by
    unfold stripDot neighbours
    exact Finset.sum_congr rfl fun k _ => by rw [ha, hxa]
  rw [pay_apply]
  unfold entry mean
  simp only [hxi, hws, hwa, hb, hnb, hdiv]

end Cert.KernelIdeal.Sage

end
-- ==== Proof.KernelValue.lean ====
/-
  The kernel's result array after its run is the layer's output of the argument arrays.

  Grid point `t` of 50 works on nodes `200 t … 200 t + 199`: it stages that strip of the adjacency, the whole
  extended features, features, weight halves and bias row, runs the body, and writes the body's 200×256 block back
  to rows `200 t …` of the result. The extended features are what the program computes before the call: the
  features with a column of ones joined behind them; the weight halves are the weight's first and last 256 rows; the
  bias row is the bias reshaped. So each written block is that block of the layer's output, and the 50 blocks tile
  the result array.
-/
import proofs.«137840_g30640296690057_cont_9to1_302_4_alg».proof.Proof.Gen.KernelIdeal.Value
import proofs.«137840_g30640296690057_cont_9to1_302_4_alg».proof.Proof.Body
import proofs.«137840_g30640296690057_cont_9to1_302_4_alg».proof.Proof.Entry
import Idealize.ShloMosaic.Lib.Pipeline.Value
import Idealize.ShloMosaic.Lib.StableHlo.Run

noncomputable section

namespace Cert.KernelIdeal.Sage

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.Sage

variable (m : (ℓ : Loc nD τ sig) → Buf (Elt Ideal) ℓ) (ρ : Dev nD → PrngReg)

/-- The four arguments as the launch finds them on device `c`. -/
abbrev feat (c : Dev nD) : FVec Ideal S10000x256 .f32 := m ((c : Thread nD τ).loc main_arg0)
abbrev adjacency (c : Dev nD) : FVec Ideal S10000x10000 .f32 := m ((c : Thread nD τ).loc main_arg1)
abbrev weight (c : Dev nD) : FVec Ideal S512x256 .f32 := m ((c : Thread nD τ).loc main_arg2)
abbrev biasVec (c : Dev nD) : FVec Ideal S256 .f32 := m ((c : Thread nD τ).loc main_arg3)

/-! ## The arrays the program computes before the call -/

theorem V_weightLo (c : Dev nD) : (V m c main_v0 : S256x256.Idx → EReal)
    = extractStridedSlice S256x256 ![0, 0] (weight m c) slices_S512x256_S256x256_0_0 := by
  dsimp only [Gen.V, Gen.hostOps0]; after_results <;> rfl

theorem V_weightHi (c : Dev nD) : (V m c main_v1 : S256x256.Idx → EReal)
    = extractStridedSlice S256x256 ![256, 0] (weight m c) slices_S512x256_S256x256_256_0 := by
  dsimp only [Gen.V, Gen.hostOps0]; after_results <;> rfl

theorem V_biasRow (c : Dev nD) : (V m c main_v2 : S1x256.Idx → EReal)
    = shapeCast S1x256 (biasVec m c) shapeCasts_S256_S1x256 := by
  dsimp only [Gen.V, Gen.hostOps0]; after_results <;> rfl

/-- The column the program joins behind the features: the constant one in every row. -/
abbrev onesCol : FVec Ideal S10000x1 .f32 :=
  broadcastInDim S10000x1 ![] bcast_S_S10000x1 (constant (F := Ideal) S_ .f32 0x3F800000#32)

theorem V_extended (c : Dev nD) : (V m c main_v5 : S10000x257.Idx → EReal)
    = truncf .bf16 (concatenate S10000x257 1 [⟨S10000x256, feat m c⟩, ⟨S10000x1, onesCol⟩]
        concatenates_S10000x256_S10000x1_S10000x257_d1) bitsLt_bf16_f32 := by
  dsimp only [Gen.V, Gen.hostOps0]; after_results <;> rfl

/-! ## The index maps over the grid -/

/-- Point `t` takes strip `t` of the adjacency and writes block `t` of the result; every other window's one
    block is its whole array; the body's grid coordinate is the point's number. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ ((grid0.coords t) 0).val = t.val :=
  (by decide +kernel : ∀ t : Fin grid0.N, _)

/-! ## The staged blocks, read at an entry -/

/-- Row `p` of the strip staged at point `t` is row `200 t + p` of the adjacency. -/
theorem strip_apply (c : Dev nD) (t : Fin cfg0.N) (p : Fin 200) (k : Fin 10000) (r : Fin 10000)
    (hr : r.val = 200 * t.val + p.val) :
    (iblk m c 0 t : Vec Ideal S200x10000 .f32) (ix2 p k) = adjacency m c (ix2 r k) := by
  obtain ⟨e0, e1, -⟩ := index_facts t
  unfold iblk
  rw [View.read_apply]
  show V m c main_arg1 _ = m (c.tc.loc main_arg1) _
  rw [V_main_arg1]
  congr 1
  funext a
  apply Fin.ext
  match a with
  | ⟨0, _⟩ => show win0_0.index t 0 * 200 + 1 * p.val = r.val; rw [e0, hr]; omega
  | ⟨1, _⟩ => show win0_0.index t 1 * 10000 + 1 * k.val = k.val; rw [e1]; omega

/-- The staged extended features are the array the program computed before the call. -/
theorem extended_apply (c : Dev nD) (t : Fin cfg0.N) (y : S10000x257.Idx) :
    (iblk m c 1 t : Vec Ideal S10000x257 .bf16) y = (V m c main_v5 : S10000x257.Idx → EReal) y := by
  obtain ⟨-, -, e0, e1, -⟩ := index_facts t
  unfold iblk
  rw [View.read_apply]
  show V m c main_v5 _ = V m c main_v5 _
  congr 1
  funext a
  apply Fin.ext
  match a with
  | ⟨0, _⟩ => show win0_1.index t 0 * 10000 + 1 * (y 0).val = (y 0).val; rw [e0]; omega
  | ⟨1, _⟩ => show win0_1.index t 1 * 257 + 1 * (y 1).val = (y 1).val; rw [e1]; omega

/-- Its first 256 columns are the features … -/
theorem extended_col (c : Dev nD) (t : Fin cfg0.N) (k : Fin 10000) (j : Fin 256) :
    (iblk m c 1 t : Vec Ideal S10000x257 .bf16) (ix2 k (col j)) = feat m c (ix2 k j) := by
  rw [extended_apply, V_extended, truncf_apply]
  exact concatenate_pair_apply_left 1 (feat m c) onesCol concatenates_S10000x256_S10000x1_S10000x257_d1
    (ix2 k (col j)) rfl (ix2 k j) fun d => by
      match d with
      | ⟨0, _⟩ => rfl
      | ⟨1, _⟩ => rfl

/-- … and its last column is the constant one. -/
theorem extended_last (c : Dev nD) (t : Fin cfg0.N) (k : Fin 10000) :
    (iblk m c 1 t : Vec Ideal S10000x257 .bf16) (ix2 k lastCol) = (1 : EReal) := by
  rw [extended_apply, V_extended, truncf_apply]
  refine (concatenate_pair_apply_right 1 (feat m c) onesCol concatenates_S10000x256_S10000x1_S10000x257_d1
    (ix2 k lastCol) rfl rfl (ix2 k (0 : Fin 1)) (fun d hd => ?_) rfl).trans ?_
  · match d with
    | ⟨0, _⟩ => rfl
    | ⟨1, _⟩ => exact absurd rfl hd
  · unfold onesCol
    rw [broadcastInDim_apply _ bcast_S_S10000x1 _ (ix2 k (0 : Fin 1)) ix0 (fun d => d.elim0), constant_apply]
    exact Ideal.ofBits_one_f32

/-- The staged features are the features. -/
theorem features_apply (c : Dev nD) (t : Fin cfg0.N) (y : S10000x256.Idx) :
    (iblk m c 2 t : Vec Ideal S10000x256 .f32) y = feat m c y := by
  obtain ⟨-, -, -, -, e0, e1, -⟩ := index_facts t
  unfold iblk
  rw [View.read_apply]
  show V m c main_arg0 _ = m (c.tc.loc main_arg0) _
  rw [V_main_arg0]
  congr 1
  funext a
  apply Fin.ext
  match a with
  | ⟨0, _⟩ => show win0_2.index t 0 * 10000 + 1 * (y 0).val = (y 0).val; rw [e0]; omega
  | ⟨1, _⟩ => show win0_2.index t 1 * 256 + 1 * (y 1).val = (y 1).val; rw [e1]; omega

/-- The 200 feature rows the body loads at point `t` are the rows of nodes `200 t …`. -/
theorem ownRows_apply (c : Dev nD) (t : Fin cfg0.N) (p : Fin 200) (j : Fin 256) (r : Fin 10000)
    (hr : r.val = 200 * t.val + p.val) :
    ownRows (grid0.coords t) (iblk m c 2 t : Vec Ideal S10000x256 .f32) (ix2 p j) = feat m c (ix2 r j) := by
  have hc : ((grid0.coords t) 0).val = t.val := (index_facts t).2.2.2.2.2.2.2.2.2.2.2.2.2.2
  show (iblk m c 2 t : Vec Ideal S10000x256 .f32) _ = _
  rw [features_apply]
  congr 1
  funext a
  apply Fin.ext
  match a with
  | ⟨0, _⟩ => show k0_off1 (grid0.coords t) 0 + 1 * p.val = r.val; rw [k0_off1_eq, hr]; show 200 * ((grid0.coords t) 0).val + 1 * p.val = _; rw [hc]; omega
  | ⟨1, _⟩ => show k0_off1 (grid0.coords t) 1 + 1 * j.val = j.val; rw [k0_off1_eq]; show 0 + 1 * j.val = _; omega

/-- The first staged weight block is the weight's first 256 rows. -/
theorem weightLo_apply (c : Dev nD) (t : Fin cfg0.N) (j q : Fin 256) :
    (iblk m c 3 t : Vec Ideal S256x256 .f32) (ix2 j q) = weight m c (ix2 (lo j) q) := by
  obtain ⟨-, -, -, -, -, -, e0, e1, -⟩ := index_facts t
  unfold iblk
  rw [View.read_apply]
  show (V m c main_v0 : S256x256.Idx → EReal) _ = _
  rw [V_weightLo]
  refine extractStridedSlice_apply _ _ _ _ _ fun a => ?_
  match a with
  | ⟨0, _⟩ => show j.val = 0 + (win0_3.index t 0 * 256 + 1 * j.val); rw [e0]; omega
  | ⟨1, _⟩ => show q.val = 0 + (win0_3.index t 1 * 256 + 1 * q.val); rw [e1]; omega

/-- The second is its last 256 rows. -/
theorem weightHi_apply (c : Dev nD) (t : Fin cfg0.N) (j q : Fin 256) :
    (iblk m c 4 t : Vec Ideal S256x256 .f32) (ix2 j q) = weight m c (ix2 (hi j) q) := by
  obtain ⟨-, -, -, -, -, -, -, -, e0, e1, -⟩ := index_facts t
  unfold iblk
  rw [View.read_apply]
  show (V m c main_v1 : S256x256.Idx → EReal) _ = _
  rw [V_weightHi]
  refine extractStridedSlice_apply _ _ _ _ _ fun a => ?_
  match a with
  | ⟨0, _⟩ => show 256 + j.val = 256 + (win0_4.index t 0 * 256 + 1 * j.val); rw [e0]; omega
  | ⟨1, _⟩ => show q.val = 0 + (win0_4.index t 1 * 256 + 1 * q.val); rw [e1]; omega

/-- The staged bias row is the bias. -/
theorem biasRow_apply (c : Dev nD) (t : Fin cfg0.N) (q : Fin 256) :
    (iblk m c 5 t : Vec Ideal S1x256 .f32) (ix2 (0 : Fin 1) q) = biasVec m c (ix1 q) := by
  obtain ⟨-, -, -, -, -, -, -, -, -, -, e0, e1, -⟩ := index_facts t
  unfold iblk
  rw [View.read_apply]
  show (V m c main_v2 : S1x256.Idx → EReal) _ = _
  rw [V_biasRow]
  refine shapeCast_apply _ _ _ _ ?_
  rw [Shape.rowMajor_val_one, Shape.rowMajor_val_two]
  show q.val = (win0_5.index t 0 * 1 + 1 * 0) * 256 + (win0_5.index t 1 * 256 + 1 * q.val)
  rw [e0, e1]; omega

/-! ## What each point writes back, and the array the blocks make up -/

/-- The layer's output of the launch's argument arrays. -/
abbrev result (c : Dev nD) : Buf (Elt Ideal) ((c : Thread nD τ).loc main_v6) :=
  out (feat m c) (adjacency m c) (weight m c) (biasVec m c)

/-- What point `t` writes back is block `t` of the layer's output. -/
theorem flushed_eq (c : Dev nD) (t : Fin cfg0.N) :
    (dats m 0 c).flushed 6 t = ((cfg0.win 6).blk t).view.read (Elt Ideal) (result m c) := by
  obtain ⟨-, -, -, -, -, -, -, -, -, -, -, -, e0, e1, -⟩ := index_facts t
  have hN : cfg0.N = 50 := N_0
  rw [flushed6_A, out_eq]
  funext y
  obtain ⟨p, q, rfl⟩ : ∃ (p : Fin 200) (q : Fin 256), y = ix2 p q := ⟨y 0, y 1, eq_ix2 y⟩
  have hr : 200 * t.val + p.val < 10000 := by have := t.isLt; have := p.isLt; omega
  have hy : ((cfg0.win 6).blk t).view.emb (ix2 p q) = ix2 (⟨200 * t.val + p.val, hr⟩ : Fin 10000) q := by
    funext a
    apply Fin.ext
    match a with
    | ⟨0, _⟩ => show win0_6.index t 0 * 200 + 1 * p.val = 200 * t.val + p.val; rw [e0]; omega
    | ⟨1, _⟩ => show win0_6.index t 1 * 256 + 1 * q.val = q.val; rw [e1]; omega
  rw [View.read_apply, hy]
  show k0_pay1 (F := Ideal) (iblk m c 0 t) (iblk m c 1 t) (ownRows (grid0.coords t) (iblk m c 2 t)) (iblk m c 3 t) (iblk m c 4 t) (iblk m c 5 t) (ix2 p q)
    = out (feat m c) (adjacency m c) (weight m c) (biasVec m c) (ix2 (⟨200 * t.val + p.val, hr⟩ : Fin 10000) q)
  rw [out_apply]
  exact block_entry (feat m c) (adjacency m c) (weight m c) (biasVec m c)
    (iblk m c 0 t) (iblk m c 1 t) (ownRows (grid0.coords t) (iblk m c 2 t)) (iblk m c 3 t) (iblk m c 4 t) (iblk m c 5 t)
    ⟨200 * t.val + p.val, hr⟩ p q
    (fun k => strip_apply m c t p k _ rfl)
    (fun k j => extended_col m c t k j)
    (fun k => extended_last m c t k)
    (fun j => ownRows_apply m c t p j _ rfl)
    (fun j => weightLo_apply m c t j q)
    (fun j => weightHi_apply m c t j q)
    (biasRow_apply m c t q)

/-- Row `r` of the result lies in the block of point `r / 200`: the 50 blocks tile the array. -/
theorem covered (i : S10000x256.Idx) :
    ∃ t : Fin cfg0.N, (cfg0.win 6).flush t = true ∧ i ∈ ((cfg0.win 6).blk t).view.set := by
  have hN : cfg0.N = 50 := N_0
  have hi0 : (i 0).val < 10000 := (i 0).isLt
  have hi1 : (i 1).val < 256 := (i 1).isLt
  let t : Fin cfg0.N := ⟨(i 0).val / 200, by rw [hN]; omega⟩
  obtain ⟨-, -, -, -, -, -, -, -, -, -, -, -, e0, e1, -⟩ := index_facts t
  have ht : t.val = (i 0).val / 200 := rfl
  refine ⟨t, flush0_6 t, ?_⟩
  show i ∈ ((View.whole main_v6).slice (win0_6.rect t)).set
  rw [View.set_slice_whole, Rect.mem_set_unit]
  intro a
  match a with
  | ⟨0, _⟩ =>
    show win0_6.index t 0 * 200 ≤ (i 0).val ∧ (i 0).val < win0_6.index t 0 * 200 + 200
    rw [e0, ht]; omega
  | ⟨1, _⟩ =>
    show win0_6.index t 1 * 256 ≤ (i 1).val ∧ (i 1).val < win0_6.index t 1 * 256 + 256
    rw [e1]; omega

/-- So after the run the result array is the layer's output. -/
theorem final (c : Dev nD) : (dats m 0 c).arrAt 6 cfg0.N = result m c :=
  (dats m 0 c).arrAt_eq_of_cover 6 (result m c) (fun t _ => flushed_eq m c t) covered

/-- The kernel's run, read: the result array at the layer's output of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.KernelIdeal.Sage

end
-- ==== Proof.RefValue.lean ====
/-
  The reference program's result, read one operation at a time, is the layer's function of its arguments.

  The reference multiplies the adjacency by the features, sums the adjacency's rows from zero, replaces a zero sum by
  one, divides, joins the features and the quotient side by side into a 10000×512 array and multiplies that by the
  whole weight. At entry `(r, o)` the last product is a sum over the 512 joined columns; it splits into the first
  256, where the joined array is the features, and the last 256, where it is the neighbourhood mean.
-/
import proofs.«137840_g30640296690057_cont_9to1_302_4_alg».proof.Proof.Gen.ReferenceIdeal.Read
import proofs.«137840_g30640296690057_cont_9to1_302_4_alg».proof.Proof.Spec

noncomputable section

namespace Cert.ReferenceIdeal.Sage

open Cert.ReferenceIdeal Cert.ReferenceIdeal.Gen Cert.ReferenceIdeal.Read Idealize.ShloMosaic Idealize.ShloMosaic.ValueIdx
open Cert.Sage

variable (x : FVec Ideal S10000x256 .f32) (adj : FVec Ideal S10000x10000 .f32) (w : FVec Ideal S512x256 .f32)
  (b : FVec Ideal S256 .f32)

/-- The row sum from zero is the degree. -/
theorem degree_apply (r : Fin 10000) : val_main_v1 (F := Ideal) adj (ix1 r) = degree adj r := by
  rw [val_main_v1_apply, val_main_cst_apply, Ideal.ofBits_def, Ideal.ofBits_zero_f32, zero_add]
  unfold degree
  exact Finset.sum_congr rfl fun k _ => congrArg adj (funext fun a => by
    match a with
    | ⟨0, _⟩ => rfl
    | ⟨1, _⟩ => rfl)

/-- The selected row sum is the divisor. -/
theorem divisor_apply (r : Fin 10000) : val_main_v5 (F := Ideal) adj (ix1 r) = divisor adj r := by
  rw [val_main_v5_apply, val_main_v3_apply, val_main_v4_apply, val_main_cst_1_apply, val_main_v2_apply,
    val_main_cst_0_apply, degree_apply, Ideal.ofBits_def, Ideal.ofBits_def, Ideal.ofBits_zero_f32,
    Ideal.ofBits_one_f32]
  rfl

/-- The first product's entry is the weighted sum of the neighbours' features. -/
theorem neighbours_apply (r : Fin 10000) (j : Fin 256) : val_main_v0 (F := Ideal) x adj (ix2 r j) = neighbours x adj r j := by
  rw [val_main_v0_apply]
  unfold neighbours
  exact Finset.sum_congr rfl fun k _ => congrArg₂ (· * ·)
    (congrArg adj (funext fun a => by
      match a with
      | ⟨0, _⟩ => rfl
      | ⟨1, _⟩ => rfl))
    (congrArg x (funext fun a => by
      match a with
      | ⟨0, _⟩ => rfl
      | ⟨1, _⟩ => rfl))

/-- The quotient's entry is the neighbourhood mean: the divisor is spread along the row. -/
theorem mean_apply (r : Fin 10000) (j : Fin 256) : val_main_v8 (F := Ideal) x adj (ix2 r j) = mean x adj r j := by
  rw [val_main_v8_apply, val_main_v7_apply, val_main_v6_apply, neighbours_apply, Ideal.hostDivf_def]
  unfold mean
  refine congrArg (Ideal.div (neighbours x adj r j)) ((congrArg (val_main_v5 (F := Ideal) adj) ?_).trans (divisor_apply adj r))
  exact funext fun a => by
    match a with
    | ⟨0, _⟩ => rfl

/-- In its first 256 columns the joined array is the features. -/
theorem joined_lo (r : Fin 10000) (j : Fin 256) : val_main_v9 (F := Ideal) x adj (ix2 r (lo j)) = x (ix2 r j) := by
  unfold val_main_v9
  exact concatenate_pair_apply_left 1 x (val_main_v8 (F := Ideal) x adj) concatenates_S10000x256_S10000x256_S10000x512_d1
    (ix2 r (lo j)) rfl (ix2 r j) fun c => by
      match c with
      | ⟨0, _⟩ => rfl
      | ⟨1, _⟩ => rfl

/-- In its last 256 columns it is the neighbourhood mean. -/
theorem joined_hi (r : Fin 10000) (j : Fin 256) : val_main_v9 (F := Ideal) x adj (ix2 r (hi j)) = mean x adj r j := by
  unfold val_main_v9
  refine (concatenate_pair_apply_right 1 x (val_main_v8 (F := Ideal) x adj) concatenates_S10000x256_S10000x256_S10000x512_d1
    (ix2 r (hi j)) rfl rfl (ix2 r j) (fun c hc => ?_) ?_).trans (mean_apply x adj r j)
  · match c with
    | ⟨0, _⟩ => rfl
    | ⟨1, _⟩ => exact absurd rfl hc
  · show j.val + 256 = 256 + j.val
    omega

/-- The reference's result array is the layer's output. -/
theorem result_eq : val_main_v13 (F := Ideal) x adj w b = out x adj w b := by
  funext i
  obtain ⟨r, o, rfl⟩ : ∃ (r : Fin 10000) (o : Fin 256), i = ix2 r o := ⟨i 0, i 1, eq_ix2 i⟩
  rw [out_apply, val_main_v13_apply, val_main_v10_apply, val_main_v12_apply, val_main_v11_apply, sum_halves]
  unfold entry
  have hl : ∀ k : Fin 512, lidx_main_v10 (ix2 r o) k = ix2 r k := fun k => funext fun a => by
    match a with
    | ⟨0, _⟩ => rfl
    | ⟨1, _⟩ => rfl
  have hr : ∀ k : Fin 512, ridx_main_v10 (ix2 r o) k = ix2 k o := fun k => funext fun a => by
    match a with
    | ⟨0, _⟩ => rfl
    | ⟨1, _⟩ => rfl
  have hb : idx_main_v11 (idx_main_v12 (ix2 r o)) = ix1 o := funext fun a => by
    match a with
    | ⟨0, _⟩ => rfl
  simp only [hl, hr, hb, joined_lo, joined_hi, Ideal.addf_def]

end Cert.ReferenceIdeal.Sage

end
-- ==== Proof.lean ====
/-
  A graph-convolution layer with a dense adjacency, computed by one fused kernel over 50 strips of 200 nodes, against
  its plain array formulation. Over the extended reals both compute, for node `r` and output feature `o`,

    (∑ j, x (r, j) · w (j, o)  +  ∑ j, mean (r, j) · w (256 + j, o))  +  b o,

  with `mean (r, j) = (∑ k, adj (r, k) · x (k, j)) / d r` and `d r` the row sum `∑ k, adj (r, k)`, or one where that
  sum compares equal to zero (Proof/Spec.lean).

  The kernel obtains the row sum from the same matrix product as the neighbours' sums, by joining a column of ones
  behind the features: the product's last column is `∑ k, adj (r, k) · 1`. It multiplies the node's own features and
  the mean by the two halves of the weight separately and adds the products; the reference joins features and mean
  side by side and multiplies once by the whole weight, a sum over 512 columns that splits into the same two sums
  over 256. The two sides differ by `a · 1 = a`, `0 + s = s` and that split, all of which hold on every extended
  real; the precondition is not used. Narrowing the adjacency strip and the extended features to a shorter float
  format changes no value over the extended reals.

  Proof/Payload.lean reads the body's arithmetic at an entry; Proof/Entry.lean shows it is the layer's entry given
  what the staged blocks hold; Proof/Body.lean and Proof/KernelValue.lean read the staged blocks off the arguments
  and assemble the 50 written blocks into the result array; Proof/RefValue.lean reads the reference one operation at
  a time. Here the two runs are set side by side.
-/
import proofs.«137840_g30640296690057_cont_9to1_302_4_alg».proof.Defs
import proofs.«137840_g30640296690057_cont_9to1_302_4_alg».proof.Proof.Gen.Kernel
import proofs.«137840_g30640296690057_cont_9to1_302_4_alg».proof.Proof.Gen.Kernel.Frame
import proofs.«137840_g30640296690057_cont_9to1_302_4_alg».proof.Proof.Gen.KernelIdeal
import proofs.«137840_g30640296690057_cont_9to1_302_4_alg».proof.Proof.Gen.KernelIdeal.Frame
import proofs.«137840_g30640296690057_cont_9to1_302_4_alg».proof.Proof.Gen.KernelIdeal.Value
import proofs.«137840_g30640296690057_cont_9to1_302_4_alg».proof.Proof.Gen.ReferenceIdeal
import proofs.«137840_g30640296690057_cont_9to1_302_4_alg».proof.Proof.Gen.ReferenceIdeal.Run
import proofs.«137840_g30640296690057_cont_9to1_302_4_alg».proof.Proof.Gen.ReferenceIdeal.Read
import proofs.«137840_g30640296690057_cont_9to1_302_4_alg».proof.Proof.Gen.Pre_finite_inputs
import proofs.«137840_g30640296690057_cont_9to1_302_4_alg».proof.Proof.KernelValue
import proofs.«137840_g30640296690057_cont_9to1_302_4_alg».proof.Proof.RefValue
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the layer's output of the (agreeing) arguments in their result arrays. -/
theorem algebraic : Cert.algebraic_KernelIdeal_ReferenceIdeal := by
  intro m ρ m' ρ' _ hagree
  refine ⟨fun c => Cert.KernelIdeal.Sage.result m c, Cert.KernelIdeal.Sage.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.Sage.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
